-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x34x128x128 : Shape := ⟨5, ![32, 4, 34, 128, 128]⟩
abbrev S32x128x128 : Shape := ⟨3, ![32, 128, 128]⟩
abbrev S32x30x17 : Shape := ⟨3, ![32, 30, 17]⟩
abbrev S32x1x30x17 : Shape := ⟨4, ![32, 1, 30, 17]⟩
abbrev S32x17x128x128 : Shape := ⟨4, ![32, 17, 128, 128]⟩
abbrev S_ : Shape := ⟨0, ![]⟩

class Facts : Prop where
  bcast_S_S32x4x34x128x128 : S_.BroadcastsInDim S32x4x34x128x128 (![] : Fin 0 → Fin S32x4x34x128x128.rank)
  reducesTo_S32x4x34x128x128_S_d0_1_2_3_4 : S32x4x34x128x128.ReducesTo [0, 1, 2, 3, 4] S_
  h_S_ : 0 < S_.numel
  bcast_S_S32x128x128 : S_.BroadcastsInDim S32x128x128 (![] : Fin 0 → Fin S32x128x128.rank)
  reducesTo_S32x128x128_S_d0_1_2 : S32x128x128.ReducesTo [0, 1, 2] S_
  bcast_S_S32x30x17 : S_.BroadcastsInDim S32x30x17 (![] : Fin 0 → Fin S32x30x17.rank)
  reducesTo_S32x30x17_S_d0_1_2 : S32x30x17.ReducesTo [0, 1, 2] S_
  bcast_S_S32x1x30x17 : S_.BroadcastsInDim S32x1x30x17 (![] : Fin 0 → Fin S32x1x30x17.rank)
  reducesTo_S32x1x30x17_S_d0_1_2_3 : S32x1x30x17.ReducesTo [0, 1, 2, 3] S_
  bcast_S_S32x17x128x128 : S_.BroadcastsInDim S32x17x128x128 (![] : Fin 0 → Fin S32x17x128x128.rank)
  reducesTo_S32x17x128x128_S_d0_1_2_3 : S32x17x128x128.ReducesTo [0, 1, 2, 3] S_

variable [Facts]

def fn_part1 {F : FTy → Type} [FloatOps F] (main_arg5 : FVec F S32x17x128x128 .f32) (main_v13 : IVec S_ 1) (main_v16 : IVec S32x1x30x17 1) : IVec S_ 1 :=
  let main_c_5 : IVec S_ 1 := constantI S_ 1 1#1
  let main_v17 : IVec S_ 1 := (fun x v => Host.reduce IntOp.andi x v reducesTo_S32x1x30x17_S_d0_1_2_3 h_S_) main_v16 main_c_5
  let main_v18 : IVec S_ 1 := andi main_v13 main_v17
  let main_v19 : FVec F S32x17x128x128 .f32 := Host.absf main_arg5
  let main_cst_6 : FVec F S_ .f32 := constant S_ .f32 0x7F800000#32
  let main_v20 : FVec F S32x17x128x128 .f32 := broadcastInDim S32x17x128x128 ![] bcast_S_S32x17x128x128 main_cst_6
  let main_v21 : IVec S32x17x128x128 1 := cmpf .olt main_v19 main_v20
  let main_c_7 : IVec S_ 1 := constantI S_ 1 1#1
  let main_v22 : IVec S_ 1 := (fun x v => Host.reduce IntOp.andi x v reducesTo_S32x17x128x128_S_d0_1_2_3 h_S_) main_v21 main_c_7
  let main_v23 : IVec S_ 1 := andi main_v18 main_v22
  main_v23

def fn {F : FTy → Type} [FloatOps F] (main_arg0 : FVec F S32x4x34x128x128 .f32) (main_arg1 : FVec F S32x128x128 .f32) (main_arg2 : IVec S32x30x17 32) (main_arg3 : FVec F S32x30x17 .f32) (main_arg4 : FVec F S32x1x30x17 .f32) (main_arg5 : FVec F S32x17x128x128 .f32) : IVec S_ 1 :=
  let main_v0 : FVec F S32x4x34x128x128 .f32 := Host.absf main_arg0
  let main_cst : FVec F S_ .f32 := constant S_ .f32 0x7F800000#32
  let main_v1 : FVec F S32x4x34x128x128 .f32 := broadcastInDim S32x4x34x128x128 ![] bcast_S_S32x4x34x128x128 main_cst
  let main_v2 : IVec S32x4x34x128x128 1 := cmpf .olt main_v0 main_v1
  let main_c : IVec S_ 1 := constantI S_ 1 1#1
  let main_v3 : IVec S_ 1 := (fun x v => Host.reduce IntOp.andi x v reducesTo_S32x4x34x128x128_S_d0_1_2_3_4 h_S_) main_v2 main_c
  let main_v4 : FVec F S32x128x128 .f32 := Host.absf main_arg1
  let main_cst_0 : FVec F S_ .f32 := constant S_ .f32 0x7F800000#32
  let main_v5 : FVec F S32x128x128 .f32 := broadcastInDim S32x128x128 ![] bcast_S_S32x128x128 main_cst_0
  let main_v6 : IVec S32x128x128 1 := cmpf .olt main_v4 main_v5
  let main_c_1 : IVec S_ 1 := constantI S_ 1 1#1
  let main_v7 : IVec S_ 1 := (fun x v => Host.reduce IntOp.andi x v reducesTo_S32x128x128_S_d0_1_2 h_S_) main_v6 main_c_1
  let main_v8 : IVec S_ 1 := andi main_v3 main_v7
  let main_v9 : FVec F S32x30x17 .f32 := Host.absf main_arg3
  let main_cst_2 : FVec F S_ .f32 := constant S_ .f32 0x7F800000#32
  let main_v10 : FVec F S32x30x17 .f32 := broadcastInDim S32x30x17 ![] bcast_S_S32x30x17 main_cst_2
  let main_v11 : IVec S32x30x17 1 := cmpf .olt main_v9 main_v10
  let main_c_3 : IVec S_ 1 := constantI S_ 1 1#1
  let main_v12 : IVec S_ 1 := (fun x v => Host.reduce IntOp.andi x v reducesTo_S32x30x17_S_d0_1_2 h_S_) main_v11 main_c_3
  let main_v13 : IVec S_ 1 := andi main_v8 main_v12
  let main_v14 : FVec F S32x1x30x17 .f32 := Host.absf main_arg4
  let main_cst_4 : FVec F S_ .f32 := constant S_ .f32 0x7F800000#32
  let main_v15 : FVec F S32x1x30x17 .f32 := broadcastInDim S32x1x30x17 ![] bcast_S_S32x1x30x17 main_cst_4
  let main_v16 : IVec S32x1x30x17 1 := cmpf .olt main_v14 main_v15
  fn_part1 (F := F) main_arg5 main_v13 main_v16
-- ==== Kernel.lean ====
abbrev S32x4x34x128x128 : Shape := ⟨5, ![32, 4, 34, 128, 128]⟩
abbrev S32x128x128 : Shape := ⟨3, ![32, 128, 128]⟩
abbrev S32x30x17 : Shape := ⟨3, ![32, 30, 17]⟩
abbrev S32x1x30x17 : Shape := ⟨4, ![32, 1, 30, 17]⟩
abbrev S32x17x128x128 : Shape := ⟨4, ![32, 17, 128, 128]⟩
abbrev S1x1 : Shape := ⟨2, ![1, 1]⟩
abbrev S1x4x17x128x128 : Shape := ⟨5, ![1, 4, 17, 128, 128]⟩
abbrev S1x17x128x128 : Shape := ⟨4, ![1, 17, 128, 128]⟩
abbrev S1x128x128 : Shape := ⟨3, ![1, 128, 128]⟩
abbrev S4x17x128x128 : Shape := ⟨4, ![4, 17, 128, 128]⟩
abbrev S17x128x128 : Shape := ⟨3, ![17, 128, 128]⟩
abbrev S128x128 : Shape := ⟨2, ![128, 128]⟩
abbrev S1x1x128x128 : Shape := ⟨4, ![1, 1, 128, 128]⟩
abbrev S4x17x128 : Shape := ⟨3, ![4, 17, 128]⟩
abbrev S4x17 : Shape := ⟨2, ![4, 17]⟩
abbrev S4 : Shape := ⟨1, ![4]⟩
abbrev S1x4 : Shape := ⟨2, ![1, 4]⟩
abbrev S1 : Shape := ⟨1, ![1]⟩
abbrev S_ : Shape := ⟨0, ![]⟩
abbrev S32x4x17x128x128 : Shape := ⟨5, ![32, 4, 17, 128, 128]⟩
abbrev S32x4x1x278528 : Shape := ⟨4, ![32, 4, 1, 278528]⟩
abbrev S32x1x1x510 : Shape := ⟨4, ![32, 1, 1, 510]⟩
abbrev S32x4x1x510 : Shape := ⟨4, ![32, 4, 1, 510]⟩
abbrev S32x4x510x1 : Shape := ⟨4, ![32, 4, 510, 1]⟩
abbrev S1x1x1x1 : Shape := ⟨4, ![1, 1, 1, 1]⟩
abbrev S32x4x510 : Shape := ⟨3, ![32, 4, 510]⟩
abbrev S32x4x1x30x17 : Shape := ⟨5, ![32, 4, 1, 30, 17]⟩
abbrev S32x1x1x30x17 : Shape := ⟨5, ![32, 1, 1, 30, 17]⟩
abbrev S32x4x1 : Shape := ⟨3, ![32, 4, 1]⟩
abbrev S32x4 : Shape := ⟨2, ![32, 4]⟩

abbrev nBuf : Space → Nat
  | .hbm => 59
  | .vmem => 8
  | .smem => 0
  | _ => 0

abbrev bufTy : (tb : Table) → Fin (tcTables nBuf tb) → BufTy
  | .hbm, ⟨0, _⟩ => ⟨S32x4x34x128x128, .f32⟩
  | .hbm, ⟨1, _⟩ => ⟨S32x128x128, .f32⟩
  | .hbm, ⟨2, _⟩ => ⟨S32x30x17, .i32⟩
  | .hbm, ⟨3, _⟩ => ⟨S32x30x17, .f32⟩
  | .hbm, ⟨4, _⟩ => ⟨S32x1x30x17, .f32⟩
  | .hbm, ⟨5, _⟩ => ⟨S32x17x128x128, .f32⟩
  | .hbm, ⟨6, _⟩ => ⟨S1x1, .f32⟩
  | .hbm, ⟨7, _⟩ => ⟨S_, .f32⟩
  | .hbm, ⟨8, _⟩ => ⟨S32x4x17x128x128, .f32⟩
  | .hbm, ⟨9, _⟩ => ⟨S32x4x1x278528, .f32⟩
  | .hbm, ⟨10, _⟩ => ⟨S32x1x1x510, .i32⟩
  | .hbm, ⟨11, _⟩ => ⟨S32x4x1x510, .i32⟩
  | .hbm, ⟨12, _⟩ => ⟨S_, .i32⟩
  | .hbm, ⟨13, _⟩ => ⟨S32x4x1x510, .i32⟩
  | .hbm, ⟨14, _⟩ => ⟨S32x4x1x510, .i1⟩
  | .hbm, ⟨15, _⟩ => ⟨S_, .i32⟩
  | .hbm, ⟨16, _⟩ => ⟨S32x4x1x510, .i32⟩
  | .hbm, ⟨17, _⟩ => ⟨S32x4x1x510, .i32⟩
  | .hbm, ⟨18, _⟩ => ⟨S32x4x1x510, .i32⟩
  | .hbm, ⟨19, _⟩ => ⟨S32x4x510x1, .i32⟩
  | .hbm, ⟨20, _⟩ => ⟨S1, .i32⟩
  | .hbm, ⟨21, _⟩ => ⟨S_, .i32⟩
  | .hbm, ⟨22, _⟩ => ⟨S32x4x510x1, .i32⟩
  | .hbm, ⟨23, _⟩ => ⟨S32x4x510x1, .i1⟩
  | .hbm, ⟨24, _⟩ => ⟨S1x1x1x1, .i32⟩
  | .hbm, ⟨25, _⟩ => ⟨S32x4x510x1, .i32⟩
  | .hbm, ⟨26, _⟩ => ⟨S32x4x510x1, .i1⟩
  | .hbm, ⟨27, _⟩ => ⟨S32x4x510x1, .i1⟩
  | .hbm, ⟨28, _⟩ => ⟨S_, .i1⟩
  | .hbm, ⟨29, _⟩ => ⟨S32x4x510, .i1⟩
  | .hbm, ⟨30, _⟩ => ⟨S32x4x1x510, .f32⟩
  | .hbm, ⟨31, _⟩ => ⟨S32x4x1x510, .i1⟩
  | .hbm, ⟨32, _⟩ => ⟨S_, .f32⟩
  | .hbm, ⟨33, _⟩ => ⟨S32x4x1x510, .f32⟩
  | .hbm, ⟨34, _⟩ => ⟨S32x4x1x510, .f32⟩
  | .hbm, ⟨35, _⟩ => ⟨S32x4x1x30x17, .f32⟩
  | .hbm, ⟨36, _⟩ => ⟨S32x1x1x30x17, .f32⟩
  | .hbm, ⟨37, _⟩ => ⟨S32x4x1x30x17, .f32⟩
  | .hbm, ⟨38, _⟩ => ⟨S32x4x1x30x17, .f32⟩
  | .hbm, ⟨39, _⟩ => ⟨S32x4x1x30x17, .f32⟩
  | .hbm, ⟨40, _⟩ => ⟨S32x1x1x30x17, .f32⟩
  | .hbm, ⟨41, _⟩ => ⟨S32x4x1x30x17, .f32⟩
  | .hbm, ⟨42, _⟩ => ⟨S32x4x1x30x17, .f32⟩
  | .hbm, ⟨43, _⟩ => ⟨S_, .f32⟩
  | .hbm, ⟨44, _⟩ => ⟨S32x4x1, .f32⟩
  | .hbm, ⟨45, _⟩ => ⟨S_, .f32⟩
  | .hbm, ⟨46, _⟩ => ⟨S32x4, .f32⟩
  | .hbm, ⟨47, _⟩ => ⟨S_, .f32⟩
  | .hbm, ⟨48, _⟩ => ⟨S32x4, .f32⟩
  | .hbm, ⟨49, _⟩ => ⟨S32x4, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S1x4x17x128x128, .f32⟩
  | .local _ .vmem, ⟨1, _⟩ => ⟨S1x4x17x128x128, .f32⟩
  | .local _ .vmem, ⟨2, _⟩ => ⟨S1x17x128x128, .f32⟩
  | .local _ .vmem, ⟨3, _⟩ => ⟨S1x17x128x128, .f32⟩
  | .local _ .vmem, ⟨4, _⟩ => ⟨S1x128x128, .f32⟩
  | .local _ .vmem, ⟨5, _⟩ => ⟨S1x128x128, .f32⟩
  | .local _ .vmem, ⟨6, _⟩ => ⟨S1x1, .f32⟩
  | .local _ .vmem, ⟨7, _⟩ => ⟨S1x1, .f32⟩
  | _, _ => ⟨S32x4x34x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_cst_0 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_cst_3 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_cst_5 : Ref sig .tc := ⟨.hbm, 56, rfl⟩
abbrev main_v22 : Ref sig .tc := ⟨.hbm, 57, rfl⟩
abbrev main_v23 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_19 : BitVec 32 := 0#32
  let v31 : BitVec 1 := Scalar.cmpi .ne v30 c0_i32_19
  v31

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x17x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x17x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4x17x128x128_S1x4x17x128x128_0_0_0_0_0 : ∀ a, (![0, 0, 0, 0, 0] : Fin 5 → Nat) a + S1x4x17x128x128.size a ≤ S1x4x17x128x128.size a
  h_S1x4x17x128x128 : 0 < S1x4x17x128x128.numel
  shapeCasts_S1x4x17x128x128_S4x17x128x128 : S1x4x17x128x128.ShapeCasts S4x17x128x128
  inb_S1x17x128x128_S1x17x128x128_0_0_0_0 : ∀ a, (![0, 0, 0, 0] : Fin 4 → Nat) a + S1x17x128x128.size a ≤ S1x17x128x128.size a
  h_S1x17x128x128 : 0 < S1x17x128x128.numel
  shapeCasts_S1x17x128x128_S17x128x128 : S1x17x128x128.ShapeCasts S17x128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S17x128x128_S1x17x128x128 : S17x128x128.ShapeCasts S1x17x128x128
  broadcasts_S1x17x128x128_S4x17x128x128 : S1x17x128x128.Broadcasts S4x17x128x128
  shapeCasts_S128x128_S1x1x128x128 : S128x128.ShapeCasts S1x1x128x128
  broadcasts_S1x1x128x128_S4x17x128x128 : S1x1x128x128.Broadcasts S4x17x128x128
  reduces_S4x17x128x128_S4x17x128 : S4x17x128x128.Reduces [3] S4x17x128
  reduces_S4x17x128_S4x17 : S4x17x128.Reduces [2] S4x17
  reduces_S4x17_S4 : S4x17.Reduces [1] S4
  shapeCasts_S4_S1x4 : S4.ShapeCasts S1x4
  reduces_S1x4_S1 : S1x4.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  slices_S32x4x34x128x128_S32x4x17x128x128_0_0_17_0_0 : S32x4x34x128x128.Slices ![0, 0, 17, 0, 0] S32x4x17x128x128
  shapeCasts_S32x4x17x128x128_S32x4x1x278528 : S32x4x17x128x128.ShapeCasts S32x4x1x278528
  shapeCasts_S32x30x17_S32x1x1x510 : S32x30x17.ShapeCasts S32x1x1x510
  bcast_S32x1x1x510_S32x4x1x510_0_1_2_3 : S32x1x1x510.BroadcastsInDim S32x4x1x510 (![0, 1, 2, 3] : Fin 4 → Fin S32x4x1x510.rank)
  bcast_S_S32x4x1x510 : S_.BroadcastsInDim S32x4x1x510 (![] : Fin 0 → Fin S32x4x1x510.rank)
  shapeCasts_S32x4x1x510_S32x4x510x1 : S32x4x1x510.ShapeCasts S32x4x510x1
  bcast_S_S32x4x510x1 : S_.BroadcastsInDim S32x4x510x1 (![] : Fin 0 → Fin S32x4x510x1.rank)
  bcast_S1_S1x1x1x1_3 : S1.BroadcastsInDim S1x1x1x1 (![3] : Fin 1 → Fin S1x1x1x1.rank)
  bcast_S1x1x1x1_S32x4x510x1_0_1_2_3 : S1x1x1x1.BroadcastsInDim S32x4x510x1 (![0, 1, 2, 3] : Fin 4 → Fin S32x4x510x1.rank)
  reducesTo_S32x4x510x1_S32x4x510_d3 : S32x4x510x1.ReducesTo [3] S32x4x510
  h_S_ : 0 < S_.numel
  bcast_S32x4x510_S32x4x1x510_0_1_3 : S32x4x510.BroadcastsInDim S32x4x1x510 (![0, 1, 3] : Fin 3 → Fin S32x4x1x510.rank)
  shapeCasts_S32x4x1x510_S32x4x1x30x17 : S32x4x1x510.ShapeCasts S32x4x1x30x17
  bcast_S32x1x30x17_S32x1x1x30x17_0_2_3_4 : S32x1x30x17.BroadcastsInDim S32x1x1x30x17 (![0, 2, 3, 4] : Fin 4 → Fin S32x1x1x30x17.rank)
  bcast_S32x1x1x30x17_S32x4x1x30x17_0_1_2_3_4 : S32x1x1x30x17.BroadcastsInDim S32x4x1x30x17 (![0, 1, 2, 3, 4] : Fin 5 → Fin S32x4x1x30x17.rank)
  bcast_S32x30x17_S32x1x1x30x17_0_3_4 : S32x30x17.BroadcastsInDim S32x1x1x30x17 (![0, 3, 4] : Fin 3 → Fin S32x1x1x30x17.rank)
  reducesTo_S32x4x1x30x17_S32x4x1_d3_4 : S32x4x1x30x17.ReducesTo [3, 4] S32x4x1
  reducesTo_S32x4x1_S32x4_d2 : S32x4x1.ReducesTo [2] S32x4
  bcast_S_S32x4 : S_.BroadcastsInDim S32x4 (![] : Fin 0 → Fin S32x4.rank)
  reducesTo_S32x4_S_d0_1 : S32x4.ReducesTo [0, 1] S_
  gather_S32x4x1x278528_S32x4x510x1_S32x4x1x510_2_3_01_01_3_3_1111_wf : GatherDims.WF S32x4x1x278528 S32x4x510x1 S32x4x1x510 [2] [3] [0, 1] [3] [0, 1] 3 ![1, 1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x17x128x128.size a ≤ S32x4x34x128x128.size a
  hwx0_0 : ∀ i : grid0.Coords, EltTy.bits .f32 = 32 ∨ (Rect.block (s := S32x4x34x128x128) S1x4x17x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x17x128x128.size a ≤ S32x17x128x128.size a
  hwx0_1 : ∀ i : grid0.Coords, EltTy.bits .f32 = 32 ∨ (Rect.block (s := S32x17x128x128) S1x17x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S32x128x128.size a
  hwx0_2 : ∀ i : grid0.Coords, EltTy.bits .f32 = 32 ∨ (Rect.block (s := S32x128x128) S1x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S32x4x1x278528_S32x4x510x1_S32x4x1x510_2_3_01_01_3_3_1111 : GatherDims S32x4x1x278528 S32x4x510x1 S32x4x1x510 where
  offsetDims := [2]
  collapsedSliceDims := [3]
  operandBatchingDims := [0, 1]
  startIndicesBatchingDims := [0, 1]
  startIndexMap := [3]
  indexVectorDim := 3
  sliceSizes := ![1, 1, 1, 1]
  wf := gather_S32x4x1x278528_S32x4x510x1_S32x4x1x510_2_3_01_01_3_3_1111_wf

abbrev win0_0 : Pipeline.Window sig grid0 :=
  Pipeline.Window.ofSpec (Memref.whole main_arg0) S1x4x17x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1x17x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x4x34x128x128 : Shape := ⟨5, ![32, 4, 34, 128, 128]⟩
abbrev S32x128x128 : Shape := ⟨3, ![32, 128, 128]⟩
abbrev S32x30x17 : Shape := ⟨3, ![32, 30, 17]⟩
abbrev S32x1x30x17 : Shape := ⟨4, ![32, 1, 30, 17]⟩
abbrev S32x17x128x128 : Shape := ⟨4, ![32, 17, 128, 128]⟩
abbrev S32x4x17x128x128 : Shape := ⟨5, ![32, 4, 17, 128, 128]⟩
abbrev S32x4x1x278528 : Shape := ⟨4, ![32, 4, 1, 278528]⟩
abbrev S32x1x1x510 : Shape := ⟨4, ![32, 1, 1, 510]⟩
abbrev S32x4x1x510 : Shape := ⟨4, ![32, 4, 1, 510]⟩
abbrev S_ : Shape := ⟨0, ![]⟩
abbrev S32x4x510x1 : Shape := ⟨4, ![32, 4, 510, 1]⟩
abbrev S1 : Shape := ⟨1, ![1]⟩
abbrev S1x1x1x1 : Shape := ⟨4, ![1, 1, 1, 1]⟩
abbrev S32x4x510 : Shape := ⟨3, ![32, 4, 510]⟩
abbrev S32x4x1x30x17 : Shape := ⟨5, ![32, 4, 1, 30, 17]⟩
abbrev S32x1x1x30x17 : Shape := ⟨5, ![32, 1, 1, 30, 17]⟩
abbrev S32x4x1 : Shape := ⟨3, ![32, 4, 1]⟩
abbrev S32x4 : Shape := ⟨2, ![32, 4]⟩
abbrev S32x1x17x128x128 : Shape := ⟨5, ![32, 1, 17, 128, 128]⟩
abbrev S32x1x1x128x128 : Shape := ⟨5, ![32, 1, 1, 128, 128]⟩

abbrev nBuf : Space → Nat
  | .hbm => 74
  | .vmem => 0
  | .smem => 0
  | _ => 0

abbrev bufTy : (tb : Table) → Fin (tcTables nBuf tb) → BufTy
  | .hbm, ⟨0, _⟩ => ⟨S32x4x34x128x128, .f32⟩
  | .hbm, ⟨1, _⟩ => ⟨S32x128x128, .f32⟩
  | .hbm, ⟨2, _⟩ => ⟨S32x30x17, .i32⟩
  | .hbm, ⟨3, _⟩ => ⟨S32x30x17, .f32⟩
  | .hbm, ⟨4, _⟩ => ⟨S32x1x30x17, .f32⟩
  | .hbm, ⟨5, _⟩ => ⟨S32x17x128x128, .f32⟩
  | .hbm, ⟨6, _⟩ => ⟨S32x4x17x128x128, .f32⟩
  | .hbm, ⟨7, _⟩ => ⟨S32x4x1x278528, .f32⟩
  | .hbm, ⟨8, _⟩ => ⟨S32x1x1x510, .i32⟩
  | .hbm, ⟨9, _⟩ => ⟨S32x4x1x510, .i32⟩
  | .hbm, ⟨10, _⟩ => ⟨S_, .i32⟩
  | .hbm, ⟨11, _⟩ => ⟨S32x4x1x510, .i32⟩
  | .hbm, ⟨12, _⟩ => ⟨S32x4x1x510, .i1⟩
  | .hbm, ⟨13, _⟩ => ⟨S_, .i32⟩
  | .hbm, ⟨14, _⟩ => ⟨S32x4x1x510, .i32⟩
  | .hbm, ⟨15, _⟩ => ⟨S32x4x1x510, .i32⟩
  | .hbm, ⟨16, _⟩ => ⟨S32x4x1x510, .i32⟩
  | .hbm, ⟨17, _⟩ => ⟨S32x4x510x1, .i32⟩
  | .hbm, ⟨18, _⟩ => ⟨S1, .i32⟩
  | .hbm, ⟨19, _⟩ => ⟨S_, .i32⟩
  | .hbm, ⟨20, _⟩ => ⟨S32x4x510x1, .i32⟩
  | .hbm, ⟨21, _⟩ => ⟨S32x4x510x1, .i1⟩
  | .hbm, ⟨22, _⟩ => ⟨S1x1x1x1, .i32⟩
  | .hbm, ⟨23, _⟩ => ⟨S32x4x510x1, .i32⟩
  | .hbm, ⟨24, _⟩ => ⟨S32x4x510x1, .i1⟩
  | .hbm, ⟨25, _⟩ => ⟨S32x4x510x1, .i1⟩
  | .hbm, ⟨26, _⟩ => ⟨S_, .i1⟩
  | .hbm, ⟨27, _⟩ => ⟨S32x4x510, .i1⟩
  | .hbm, ⟨28, _⟩ => ⟨S32x4x1x510, .f32⟩
  | .hbm, ⟨29, _⟩ => ⟨S32x4x1x510, .i1⟩
  | .hbm, ⟨30, _⟩ => ⟨S_, .f32⟩
  | .hbm, ⟨31, _⟩ => ⟨S32x4x1x510, .f32⟩
  | .hbm, ⟨32, _⟩ => ⟨S32x4x1x510, .f32⟩
  | .hbm, ⟨33, _⟩ => ⟨S32x4x1x30x17, .f32⟩
  | .hbm, ⟨34, _⟩ => ⟨S32x1x1x30x17, .f32⟩
  | .hbm, ⟨35, _⟩ => ⟨S32x4x1x30x17, .f32⟩
  | .hbm, ⟨36, _⟩ => ⟨S32x4x1x30x17, .f32⟩
  | .hbm, ⟨37, _⟩ => ⟨S32x4x1x30x17, .f32⟩
  | .hbm, ⟨38, _⟩ => ⟨S32x1x1x30x17, .f32⟩
  | .hbm, ⟨39, _⟩ => ⟨S32x4x1x30x17, .f32⟩
  | .hbm, ⟨40, _⟩ => ⟨S32x4x1x30x17, .f32⟩
  | .hbm, ⟨41, _⟩ => ⟨S_, .f32⟩
  | .hbm, ⟨42, _⟩ => ⟨S32x4x1, .f32⟩
  | .hbm, ⟨43, _⟩ => ⟨S_, .f32⟩
  | .hbm, ⟨44, _⟩ => ⟨S32x4, .f32⟩
  | .hbm, ⟨45, _⟩ => ⟨S_, .f32⟩
  | .hbm, ⟨46, _⟩ => ⟨S32x4, .f32⟩
  | .hbm, ⟨47, _⟩ => ⟨S32x4, .f32⟩
  | .hbm, ⟨48, _⟩ => ⟨S32x4x17x128x128, .f32⟩
  | .hbm, ⟨49, _⟩ => ⟨S32x1x17x128x128, .f32⟩
  | .hbm, ⟨50, _⟩ => ⟨S32x4x17x128x128, .f32⟩
  | .hbm, ⟨51, _⟩ => ⟨S32x4x17x128x128, .f32⟩
  | .hbm, ⟨52, _⟩ => ⟨S32x4x17x128x128, .f32⟩
  | .hbm, ⟨53, _⟩ => ⟨S32x1x1x128x128, .f32⟩
  | .hbm, ⟨54, _⟩ => ⟨S32x4x17x128x128, .f32⟩
  | .hbm, ⟨55, _⟩ => ⟨S32x4x17x128x128, .f32⟩
  | .hbm, ⟨56, _⟩ => ⟨S_, .f32⟩
  | .hbm, ⟨57, _⟩ => ⟨S32x4, .f32⟩
  | .hbm, ⟨58, _⟩ => ⟨S_, .f32⟩
  | .hbm, ⟨59, _⟩ => ⟨S32x4, .f32⟩
  | .hbm, ⟨60, _⟩ => ⟨S32x4, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S32x4x34x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst : Ref sig .tc := ⟨.hbm, 41, rfl⟩
abbrev main_v13 : Ref sig .tc := ⟨.hbm, 42, rfl⟩
abbrev main_cst_0 : Ref sig .tc := ⟨.hbm, 43, rfl⟩
abbrev main_v14 : Ref sig .tc := ⟨.hbm, 44, rfl⟩
abbrev main_cst_1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_2 : Ref sig .tc := ⟨.hbm, 56, rfl⟩
abbrev main_v25 : Ref sig .tc := ⟨.hbm, 57, rfl⟩
abbrev main_cst_3 : Ref sig .tc := ⟨.hbm, 58, rfl⟩
abbrev main_v26 : Ref sig .tc := ⟨.hbm, 59, rfl⟩
abbrev main_v27 : Ref sig .tc := ⟨.hbm, 60, rfl⟩
abbrev main_cst_4 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_cst_8 : Ref sig .tc := ⟨.hbm, 69, rfl⟩
abbrev main_v32 : Ref sig .tc := ⟨.hbm, 70, rfl⟩
abbrev main_cst_9 : Ref sig .tc := ⟨.hbm, 71, rfl⟩
abbrev main_v33 : Ref sig .tc := ⟨.hbm, 72, rfl⟩
abbrev main_v34 : Ref sig .tc := ⟨.hbm, 73, rfl⟩

abbrev nD : Nat := 1
abbrev τ : Topo := Topo.v7x

variable {F : FTy → Type} [FloatOps F]

class Facts₀ : Prop where
  slices_S32x4x34x128x128_S32x4x17x128x128_0_0_17_0_0 : S32x4x34x128x128.Slices ![0, 0, 17, 0, 0] S32x4x17x128x128
  shapeCasts_S32x4x17x128x128_S32x4x1x278528 : S32x4x17x128x128.ShapeCasts S32x4x1x278528
  shapeCasts_S32x30x17_S32x1x1x510 : S32x30x17.ShapeCasts S32x1x1x510
  bcast_S32x1x1x510_S32x4x1x510_0_1_2_3 : S32x1x1x510.BroadcastsInDim S32x4x1x510 (![0, 1, 2, 3] : Fin 4 → Fin S32x4x1x510.rank)
  bcast_S_S32x4x1x510 : S_.BroadcastsInDim S32x4x1x510 (![] : Fin 0 → Fin S32x4x1x510.rank)
  shapeCasts_S32x4x1x510_S32x4x510x1 : S32x4x1x510.ShapeCasts S32x4x510x1
  bcast_S_S32x4x510x1 : S_.BroadcastsInDim S32x4x510x1 (![] : Fin 0 → Fin S32x4x510x1.rank)
  bcast_S1_S1x1x1x1_3 : S1.BroadcastsInDim S1x1x1x1 (![3] : Fin 1 → Fin S1x1x1x1.rank)
  bcast_S1x1x1x1_S32x4x510x1_0_1_2_3 : S1x1x1x1.BroadcastsInDim S32x4x510x1 (![0, 1, 2, 3] : Fin 4 → Fin S32x4x510x1.rank)
  reducesTo_S32x4x510x1_S32x4x510_d3 : S32x4x510x1.ReducesTo [3] S32x4x510
  h_S_ : 0 < S_.numel
  bcast_S32x4x510_S32x4x1x510_0_1_3 : S32x4x510.BroadcastsInDim S32x4x1x510 (![0, 1, 3] : Fin 3 → Fin S32x4x1x510.rank)
  shapeCasts_S32x4x1x510_S32x4x1x30x17 : S32x4x1x510.ShapeCasts S32x4x1x30x17
  bcast_S32x1x30x17_S32x1x1x30x17_0_2_3_4 : S32x1x30x17.BroadcastsInDim S32x1x1x30x17 (![0, 2, 3, 4] : Fin 4 → Fin S32x1x1x30x17.rank)
  bcast_S32x1x1x30x17_S32x4x1x30x17_0_1_2_3_4 : S32x1x1x30x17.BroadcastsInDim S32x4x1x30x17 (![0, 1, 2, 3, 4] : Fin 5 → Fin S32x4x1x30x17.rank)
  bcast_S32x30x17_S32x1x1x30x17_0_3_4 : S32x30x17.BroadcastsInDim S32x1x1x30x17 (![0, 3, 4] : Fin 3 → Fin S32x1x1x30x17.rank)
  reducesTo_S32x4x1x30x17_S32x4x1_d3_4 : S32x4x1x30x17.ReducesTo [3, 4] S32x4x1
  reducesTo_S32x4x1_S32x4_d2 : S32x4x1.ReducesTo [2] S32x4
  bcast_S_S32x4 : S_.BroadcastsInDim S32x4 (![] : Fin 0 → Fin S32x4.rank)
  slices_S32x4x34x128x128_S32x4x17x128x128_0_0_0_0_0 : S32x4x34x128x128.Slices ![0, 0, 0, 0, 0] S32x4x17x128x128
  bcast_S32x17x128x128_S32x1x17x128x128_0_2_3_4 : S32x17x128x128.BroadcastsInDim S32x1x17x128x128 (![0, 2, 3, 4] : Fin 4 → Fin S32x1x17x128x128.rank)
  bcast_S32x1x17x128x128_S32x4x17x128x128_0_1_2_3_4 : S32x1x17x128x128.BroadcastsInDim S32x4x17x128x128 (![0, 1, 2, 3, 4] : Fin 5 → Fin S32x4x17x128x128.rank)
  bcast_S32x128x128_S32x1x1x128x128_0_3_4 : S32x128x128.BroadcastsInDim S32x1x1x128x128 (![0, 3, 4] : Fin 3 → Fin S32x1x1x128x128.rank)
  bcast_S32x1x1x128x128_S32x4x17x128x128_0_1_2_3_4 : S32x1x1x128x128.BroadcastsInDim S32x4x17x128x128 (![0, 1, 2, 3, 4] : Fin 5 → Fin S32x4x17x128x128.rank)
  reducesTo_S32x4x17x128x128_S32x4_d2_3_4 : S32x4x17x128x128.ReducesTo [2, 3, 4] S32x4
  reducesTo_S32x4_S_d0_1 : S32x4.ReducesTo [0, 1] S_
  gather_S32x4x1x278528_S32x4x510x1_S32x4x1x510_2_3_01_01_3_3_1111_wf : GatherDims.WF S32x4x1x278528 S32x4x510x1 S32x4x1x510 [2] [3] [0, 1] [3] [0, 1] 3 ![1, 1, 1, 1]

variable [Facts₀]

def gather_S32x4x1x278528_S32x4x510x1_S32x4x1x510_2_3_01_01_3_3_1111 : GatherDims S32x4x1x278528 S32x4x510x1 S32x4x1x510 where
  offsetDims := [2]
  collapsedSliceDims := [3]
  operandBatchingDims := [0, 1]
  startIndicesBatchingDims := [0, 1]
  startIndexMap := [3]
  indexVectorDim := 3
  sliceSizes := ![1, 1, 1, 1]
  wf := gather_S32x4x1x278528_S32x4x510x1_S32x4x1x510_2_3_01_01_3_3_1111_wf

class Facts : Prop extends Facts₀ where

variable [Facts]
-- ==== Proof.Pieces.lean ====
/-
  What each control case of the kernel body leaves behind, as a pure function of what it loaded.

  The body keeps a 1×1 accumulator in scratch.  Writing `add acc` for "the accumulator plus this
  batch element's masked squared error summed over all four block axes" (`k0_pay2`) and `scale`
  for "divide by the element count" (`k0_pay3`):
    • at the first grid point the accumulator is reset to zero and then added to, so it ends at
      `add zero`;
    • at a middle point it ends at `add` of what the point before left;
    • at the last point it ends the same way, and the output block receives `scale` of that.
  Every store covers the whole 1×1 buffer at offset zero, so reading the stores back is reading
  the last one, and a load that follows a store of the same buffer reads that store.
-/
import proofs.«146554_j83880711290948_1_alg».proof.Proof.Gen.KernelIdeal.Frame
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.Sem

variable {F : FTy → Type} [FloatOps F]

/-- Every rectangle the body touches starts at the origin of its buffer. -/
theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl
theorem off5 : (![0, 0, 0, 0, 0] : Fin 5 → Nat) = fun _ => 0 := funext fun a => by fin_cases a <;> rfl

/-- A middle point: the accumulator ends at the previous contents plus this block's sum. -/
theorem scratch_mid (c : Dev nD) (i : grid0.Coords) (a1 : Memref sig .tc .vmem S1x4x17x128x128 .f32) (h1 : a1.IsWhole) (a2 : Memref sig .tc .vmem S1x17x128x128 .f32) (h2 : a2.IsWhole) (a3 : Memref sig .tc .vmem S1x128x128 .f32) (h3 : a3.IsWhole) (a4 : Memref sig .tc .vmem S1x1 .f32) (h4 : a4.IsWhole) (a5 : Memref sig .tc .vmem S1x1 .f32) (h5 : a5.IsWhole) (hc0 : ¬cond0_0 i) (hc1 : ¬cond0_1 i)
    (x0 : Vec F S1x4x17x128x128 .f32) (x1 : Vec F S1x17x128x128 .f32) (x2 : Vec F S1x128x128 .f32) (xs0 : Vec F S1x1 .f32) :
    sout0_B_0 c i a1 h1 a2 h2 a3 h3 a4 h4 a5 h5 hc0 hc1 x0 x1 x2 xs0 = k0_pay2 x0 x1 x2 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  sl_unfold_words
  rw [View.canon_unit_zero off2]
  simp only [View.readAt_eq_ld, h1.read_unread, h2.read_unread, h3.read_unread, h5.read_unread,
    View.ld_unit_zero (S := S1x4x17x128x128) off5, View.ld_unit_zero (S := S1x17x128x128) off4,
    View.ld_unit_zero (S := S1x128x128) off3, View.ld_unit_zero (S := S1x1) off2]

/-- The first point: the accumulator is zeroed, then this block's sum is added to that zero. -/
theorem scratch_first (c : Dev nD) (i : grid0.Coords) (a1 : Memref sig .tc .vmem S1x4x17x128x128 .f32) (h1 : a1.IsWhole) (a2 : Memref sig .tc .vmem S1x17x128x128 .f32) (h2 : a2.IsWhole) (a3 : Memref sig .tc .vmem S1x128x128 .f32) (h3 : a3.IsWhole) (a4 : Memref sig .tc .vmem S1x1 .f32) (h4 : a4.IsWhole) (a5 : Memref sig .tc .vmem S1x1 .f32) (h5 : a5.IsWhole) (hc0 : cond0_0 i) (hc1 : ¬cond0_1 i)
    (x0 : Vec F S1x4x17x128x128 .f32) (x1 : Vec F S1x17x128x128 .f32) (x2 : Vec F S1x128x128 .f32) :
    sout0_A_0 c i a1 h1 a2 h2 a3 h3 a4 h4 a5 h5 hc0 hc1 x0 x1 x2 = k0_pay2 x0 x1 x2 (k0_pay1 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) off2, View.readCov_unit_zero (S := S1x1) _ off2]
  simp only [View.readAt_eq_ld, h1.read_unread, h2.read_unread, h3.read_unread,
    View.ld_unit_zero (S := S1x4x17x128x128) off5, View.ld_unit_zero (S := S1x17x128x128) off4,
    View.ld_unit_zero (S := S1x128x128) off3]

/-- The last point: the accumulator as at a middle point. -/
theorem scratch_last (c : Dev nD) (i : grid0.Coords) (a1 : Memref sig .tc .vmem S1x4x17x128x128 .f32) (h1 : a1.IsWhole) (a2 : Memref sig .tc .vmem S1x17x128x128 .f32) (h2 : a2.IsWhole) (a3 : Memref sig .tc .vmem S1x128x128 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S1x4x17x128x128 .f32) (x1 : Vec F S1x17x128x128 .f32) (x2 : Vec F S1x128x128 .f32) (xs0 : Vec F S1x1 .f32) :
    sout0_C_0 c i a1 h1 a2 h2 a3 h3 a4 h4 a5 h5 hc0 hc1 x0 x1 x2 xs0 = k0_pay2 x0 x1 x2 xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero off2]
  simp only [View.readAt_eq_ld, h1.read_unread, h2.read_unread, h3.read_unread, h5.read_unread,
    View.ld_unit_zero (S := S1x4x17x128x128) off5, View.ld_unit_zero (S := S1x17x128x128) off4,
    View.ld_unit_zero (S := S1x128x128) off3, View.ld_unit_zero (S := S1x1) off2]

/-- The last point: the output block is the finished accumulator divided by the element count. -/
theorem out_last (c : Dev nD) (i : grid0.Coords) (a1 : Memref sig .tc .vmem S1x4x17x128x128 .f32) (h1 : a1.IsWhole) (a2 : Memref sig .tc .vmem S1x17x128x128 .f32) (h2 : a2.IsWhole) (a3 : Memref sig .tc .vmem S1x128x128 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S1x4x17x128x128 .f32) (x1 : Vec F S1x17x128x128 .f32) (x2 : Vec F S1x128x128 .f32) (xs0 : Vec F S1x1 .f32) :
    out0_C_3 c i a1 h1 a2 h2 a3 h3 a4 h4 a5 h5 hc0 hc1 x0 x1 x2 xs0 = k0_pay3 (k0_pay2 x0 x1 x2 xs0) := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero off2]
  simp only [View.readCov_unit_zero (S := S1x1) _ off2, View.readAt_eq_ld, h1.read_unread, h2.read_unread,
    h3.read_unread, h5.read_unread,
    View.ld_unit_zero (S := S1x4x17x128x128) off5, View.ld_unit_zero (S := S1x17x128x128) off4,
    View.ld_unit_zero (S := S1x128x128) off3, View.ld_unit_zero (S := S1x1) off2]

end Cert.KernelIdeal.Acc

end
-- ==== Proof.BlockSum.lean ====
/-
  The body's arithmetic read at an index, on the extended reals.

  For one batch element the body forms, at every (stack s, part p, row h, column w),
      (pred − heat)² · mask
  with the heat map broadcast along the stack axis and the mask along stack and part, and sums it
  over the columns, then the rows, then the parts, then the stacks.  Each of the four reductions
  runs over ONE axis, so each is a finite sum over that axis's coordinates, and the four nest into
  a sum over the whole block (`blockSum`).  The accumulator's new value is its old value plus that
  sum; the value written to the output is the accumulator divided by the element count.
-/
import proofs.«146554_j83880711290948_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Acc

open Cert.KernelIdeal Cert.KernelIdeal.Gen
open Idealize.ShloMosaic Idealize.ShloMosaic.ValueIdx

/-- The masked squared error of one block, summed over stack, part, row and column. -/
def blockSum (x0 : Vec Ideal S1x4x17x128x128 .f32) (x1 : Vec Ideal S1x17x128x128 .f32) (x2 : Vec Ideal S1x128x128 .f32) : EReal :=
  ∑ s : Fin 4, ∑ p : Fin 17, ∑ h : Fin 128, ∑ w : Fin 128,
    (x0 (ix5 0 s p h w) - x1 (ix4 0 p h w)) * (x0 (ix5 0 s p h w) - x1 (ix4 0 p h w)) * x2 (ix3 0 h w)

section Sums
variable (hφ : FKind.Formats .f32) (hacc : (0x00000000#32 : BitVec 32) = FKind.add.neutral .f32 hφ)

/-- The sum over the columns. -/
theorem sum_cols (v : FVec Ideal S4x17x128x128 .f32) (r : S4x17x128x128.Reduces [3] S4x17x128) (s : Fin 4) (p : Fin 17) (h : Fin 128) :
    multiReduction .add [3] S4x17x128 v 0x00000000#32 r hφ hacc (ix3 s p h) = ∑ w : Fin 128, v (ix4 s p h w) :=
  (Ideal.multiReduction_add_single v _ r hφ hacc (ix3 s p h)).trans
    (Finset.sum_congr rfl fun w _ => congrArg v (funext fun a => by fin_cases a <;> exact Fin.ext rfl))

/-- The sum over the rows. -/
theorem sum_rows (v : FVec Ideal S4x17x128 .f32) (r : S4x17x128.Reduces [2] S4x17) (s : Fin 4) (p : Fin 17) :
    multiReduction .add [2] S4x17 v 0x00000000#32 r hφ hacc (ix2 s p) = ∑ h : Fin 128, v (ix3 s p h) :=
  (Ideal.multiReduction_add_single v _ r hφ hacc (ix2 s p)).trans
    (Finset.sum_congr rfl fun h _ => congrArg v (funext fun a => by fin_cases a <;> exact Fin.ext rfl))

/-- The sum over the parts. -/
theorem sum_parts (v : FVec Ideal S4x17 .f32) (r : S4x17.Reduces [1] S4) (s : Fin 4) :
    multiReduction .add [1] S4 v 0x00000000#32 r hφ hacc (ix1 s) = ∑ p : Fin 17, v (ix2 s p) :=
  (Ideal.multiReduction_add_single v _ r hφ hacc (ix1 s)).trans
    (Finset.sum_congr rfl fun p _ => congrArg v (funext fun a => by fin_cases a <;> exact Fin.ext rfl))

/-- The sum over the stacks, of the per-stack sums laid out as one row. -/
theorem sum_stacks (v : FVec Ideal S1x4 .f32) (r : S1x4.Reduces [1] S1) (k0 : S1.Idx) :
    multiReduction .add [1] S1 v 0x00000000#32 r hφ hacc k0 = ∑ s : Fin 4, v (ix2 0 s) :=
  (Ideal.multiReduction_add_single v _ r hφ hacc k0).trans
    (Finset.sum_congr rfl fun s _ => congrArg v (funext fun a => by
      fin_cases a
      · exact Fin.ext (by have hk : (k0 0).val < 1 := (k0 0).isLt; show (k0 0).val = 0; omega)
      · exact Fin.ext rfl))

end Sums

/-- A vector of four laid out as a 1×4 row reads its entry `s` at `(0, s)`. -/
theorem row_of_four {α : Type} (u : S4.Idx → α) (sc : S4.ShapeCasts S1x4) (s : Fin 4) :
    shapeCast S1x4 u sc (ix2 0 s) = u (ix1 s) :=
  (shapeCast_addUnit_apply ![4] u sc (ix2 0 s)).trans (congrArg u (funext fun a => by fin_cases a; rfl))

/-- The block of predictions with its leading unit axis dropped reads `(s, p, h, w)` at `(0, s, p, h, w)`. -/
theorem preds_at (x0 : Vec Ideal S1x4x17x128x128 .f32) (sc : S1x4x17x128x128.ShapeCasts S4x17x128x128) (s : Fin 4) (p : Fin 17) (h w : Fin 128) :
    shapeCast S4x17x128x128 x0 sc (ix4 s p h w) = x0 (ix5 0 s p h w) :=
  (shapeCast_dropUnit_apply ![4, 17, 128, 128] x0 sc (ix4 s p h w)).trans
    (congrArg x0 (funext fun a => by fin_cases a <;> rfl))

/-- The heat map, broadcast along the stack axis, reads `(s, p, h, w)` at `(0, p, h, w)`. -/
theorem heat_at (x1 : Vec Ideal S1x17x128x128 .f32) (sc : S1x17x128x128.ShapeCasts S17x128x128) (sc' : S17x128x128.ShapeCasts S1x17x128x128)
    (bc : S1x17x128x128.Broadcasts S4x17x128x128) (s : Fin 4) (p : Fin 17) (h w : Fin 128) :
    broadcastTo S4x17x128x128 (shapeCast S1x17x128x128 (shapeCast S17x128x128 x1 sc) sc') bc (ix4 s p h w) = x1 (ix4 0 p h w) := by
  rw [shapeCast_shapeCast]
  exact broadcastTo_apply x1 bc (ix4 s p h w) (ix4 0 p h w) (fun a => by fin_cases a <;> rfl)

/-- The mask, broadcast along stack and part, reads `(s, p, h, w)` at `(0, h, w)`. -/
theorem mask_at (x2 : Vec Ideal S1x128x128 .f32) (sc : S1x128x128.ShapeCasts S128x128) (sc' : S128x128.ShapeCasts S1x1x128x128)
    (bc : S1x1x128x128.Broadcasts S4x17x128x128) (s : Fin 4) (p : Fin 17) (h w : Fin 128) :
    broadcastTo S4x17x128x128 (shapeCast S1x1x128x128 (shapeCast S128x128 x2 sc) sc') bc (ix4 s p h w) = x2 (ix3 0 h w) := by
  refine (broadcastTo_apply _ bc (ix4 s p h w) (ix4 0 0 h w) (fun a => by fin_cases a <;> rfl)).trans ?_
  refine (shapeCast_apply _ sc' (ix4 0 0 h w) (ix2 h w) ?_).trans ?_
  · rw [Shape.rowMajor_val_two, Shape.rowMajor_val_four]; show h.val * 128 + w.val = ((0 * 1 + 0) * 128 + h.val) * 128 + w.val; omega
  · exact (shapeCast_dropUnit_apply ![128, 128] x2 sc (ix2 h w)).trans (congrArg x2 (funext fun a => by fin_cases a <;> rfl))

/-- The accumulator's new value: its old value plus the block's sum. -/
theorem pay2_at (x0 : Vec Ideal S1x4x17x128x128 .f32) (x1 : Vec Ideal S1x17x128x128 .f32) (x2 : Vec Ideal S1x128x128 .f32)
    (acc : Vec Ideal S1x1 .f32) (y : S1x1.Idx) :
    k0_pay2 (F := Ideal) x0 x1 x2 acc y = acc y + blockSum x0 x1 x2 := by
  unfold k0_pay2
  dsimp only
  rw [shapeCast_self]
  show acc y + shapeCast S1x1 _ shapeCasts_S1_S1x1 (fun a => ⟨![0, 0] a, inpos_S1x1_p0_0 a⟩) = _
  refine congrArg (acc y + ·) ?_
  refine (shapeCast_addUnit_apply ![1] _ shapeCasts_S1_S1x1 _).trans ?_
  refine (sum_stacks _ _ _ reduces_S1x4_S1 _).trans ?_
  unfold blockSum
  refine Finset.sum_congr rfl fun s _ => ?_
  refine (row_of_four _ shapeCasts_S4_S1x4 s).trans ?_
  refine (sum_parts _ _ _ reduces_S4x17_S4 s).trans ?_
  refine Finset.sum_congr rfl fun p _ => ?_
  refine (sum_rows _ _ _ reduces_S4x17x128_S4x17 s p).trans ?_
  refine Finset.sum_congr rfl fun h _ => ?_
  refine (sum_cols _ _ _ reduces_S4x17x128x128_S4x17x128 s p h).trans ?_
  refine Finset.sum_congr rfl fun w _ => ?_
  show (shapeCast S4x17x128x128 x0 _ (ix4 s p h w) - broadcastTo S4x17x128x128 _ _ (ix4 s p h w))
      * (shapeCast S4x17x128x128 x0 _ (ix4 s p h w) - broadcastTo S4x17x128x128 _ _ (ix4 s p h w))
      * broadcastTo S4x17x128x128 _ _ (ix4 s p h w) = _
  rw [preds_at, heat_at, mask_at]

/-- The accumulator's reset value is zero. -/
theorem pay1_at (y : S1x1.Idx) : k0_pay1 (F := Ideal) y = 0 := by
  unfold k0_pay1
  rw [shapeCast_self]
  exact Ideal.ofBits_zero_f32

/-- The output: the accumulator divided by the constant the body splats. -/
theorem pay3_at (acc : Vec Ideal S1x1 .f32) (y : S1x1.Idx) :
    k0_pay3 (F := Ideal) acc y = Ideal.div (acc y) (Ideal.ofBits .f32 0x4C080000#32) := by
  unfold k0_pay3
  rfl

end Cert.KernelIdeal.Acc

end
-- ==== Proof.Accum.lean ====
/-
  The accumulator over the grid, and the output array after the region.

  Point `t` of the 32-point grid loads batch element `t`'s blocks; write `pointSum t` for the masked
  squared error of those blocks summed over the block.  The scratch accumulator is reset at point 0
  and added to at every point, so after point `n` it holds the sum of `pointSum t` over `t ≤ n`
  (induction on `n`: the first point adds to zero, every later point adds to what the point before
  left).  The output block is stored only at the last point, as that total divided by the element
  count, and only the last point writes it back; its one block is the whole 1×1 array.
-/
import proofs.«146554_j83880711290948_1_alg».proof.Proof.Pieces
import proofs.«146554_j83880711290948_1_alg».proof.Proof.BlockSum

set_option maxRecDepth 16384

noncomputable section

namespace Cert.KernelIdeal.Acc

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The masked squared error of the blocks grid point `t` loads, summed over the block. -/
def pointSum (c : Dev nD) (t : Fin cfg0.N) : EReal :=
  blockSum (iblk m c 0 t) (iblk m c 1 t) (iblk m c 2 t)

/-- The sum of the point sums up to and including point `n`. -/
def runningSum (c : Dev nD) (n : ℕ) : EReal :=
  ∑ t ∈ Finset.univ.filter (fun t : Fin cfg0.N => t.val ≤ n), pointSum m c t

theorem runningSum_zero (c : Dev nD) (h : 0 < cfg0.N) : runningSum m c 0 = pointSum m c ⟨0, h⟩ := by
  unfold runningSum
  have e : Finset.univ.filter (fun t : Fin cfg0.N => t.val ≤ 0) = {⟨0, h⟩} := by
    ext t; simp only [Finset.mem_filter, Finset.mem_univ, true_and, Finset.mem_singleton, Fin.ext_iff]; omega
  rw [e, Finset.sum_singleton]

theorem runningSum_succ (c : Dev nD) (n : ℕ) (hn : n + 1 < cfg0.N) :
    runningSum m c (n + 1) = runningSum m c n + pointSum m c ⟨n + 1, hn⟩ := by
  unfold runningSum
  have e : Finset.univ.filter (fun t : Fin cfg0.N => t.val ≤ n + 1)
      = insert (⟨n + 1, hn⟩ : Fin cfg0.N) (Finset.univ.filter (fun t : Fin cfg0.N => t.val ≤ n)) := by
    ext t; simp only [Finset.mem_filter, Finset.mem_univ, true_and, Finset.mem_insert, Fin.ext_iff]; omega
  rw [e, Finset.sum_insert (by simp [Finset.mem_filter]), add_comm]

theorem runningSum_last (c : Dev nD) : runningSum m c 31 = ∑ t : Fin cfg0.N, pointSum m c t := by
  unfold runningSum
  rw [Finset.filter_true_of_mem fun t _ => by
    have h : t.val < 32 := lt_of_lt_of_eq t.isLt (show cfg0.N = 32 from N_0); omega]

/-- After point `n` the accumulator holds the running sum. -/
theorem scratch_after (c : Dev nD) : ∀ (n : ℕ) (hn : n < cfg0.N), (outsAt0 m c n hn).2 = fun _ => runningSum m c n
  | 0, hn => by
    have h0 : (⟨0, hn⟩ : Fin cfg0.N).val % 32 = 0 := rfl
    have h1 : ¬(⟨0, hn⟩ : Fin cfg0.N).val % 32 = 31 := by show ¬(0 % 32 = 31); decide
    show (outsAt0 m c (⟨0, hn⟩ : Fin cfg0.N).val (⟨0, hn⟩ : Fin cfg0.N).isLt).2 = _
    rw [outsAt0_A m c ⟨0, hn⟩ h0 h1]
    dsimp only
    rw [scratch_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩)]
    funext y
    rw [pay2_at, pay1_at, zero_add, runningSum_zero m c hn]
    rfl
  | n + 1, hn => by
    have hN : n + 1 < 32 := lt_of_lt_of_eq hn (show cfg0.N = 32 from N_0)
    have ih := scratch_after c n (Nat.lt_of_succ_lt hn)
    have h0 : ¬(⟨n + 1, hn⟩ : Fin cfg0.N).val % 32 = 0 := by show ¬(n + 1) % 32 = 0; omega
    show (outsAt0 m c (⟨n + 1, hn⟩ : Fin cfg0.N).val (⟨n + 1, hn⟩ : Fin cfg0.N).isLt).2 = _
    by_cases h1 : (⟨n + 1, hn⟩ : Fin cfg0.N).val % 32 = 31
    · rw [outsAt0_C m c ⟨n + 1, hn⟩ h0 h1]
      dsimp only
      rw [scratch_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩)]
      funext y
      rw [pay2_at, runningSum_succ m c n hn]
      exact congrArg (· + pointSum m c ⟨n + 1, hn⟩) (congrFun ih y)
    · rw [outsAt0_B m c ⟨n + 1, hn⟩ h0 h1]
      dsimp only
      rw [scratch_mid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩)]
      funext y
      rw [pay2_at, runningSum_succ m c n hn]
      exact congrArg (· + pointSum m c ⟨n + 1, hn⟩) (congrFun ih y)

/-- What the region's output holds: the total over all points, divided by the element count. -/
def outValue (c : Dev nD) : EReal :=
  Ideal.div (∑ t : Fin cfg0.N, pointSum m c t) (Ideal.ofBits .f32 0x4C080000#32)

/-- At the last point the output block is stored as that value. -/
theorem out_after (c : Dev nD) (hn : 31 < cfg0.N) : (outsAt0 m c 31 hn).1 = fun _ => outValue m c := by
  have h0 : ¬(⟨31, hn⟩ : Fin cfg0.N).val % 32 = 0 := by show ¬(31 % 32 = 0); decide
  have h1 : (⟨31, hn⟩ : Fin cfg0.N).val % 32 = 31 := rfl
  have ih := scratch_after m c 30 (Nat.lt_of_succ_lt hn)
  show (outsAt0 m c (⟨31, hn⟩ : Fin cfg0.N).val (⟨31, hn⟩ : Fin cfg0.N).isLt).1 = _
  rw [outsAt0_C m c ⟨31, hn⟩ h0 h1]
  dsimp only
  rw [out_last c (grid0.coords ⟨31, hn⟩) (ms0_0 ⟨31, hn⟩) (hs0_0 ⟨31, hn⟩) (ms0_1 ⟨31, hn⟩) (hs0_1 ⟨31, hn⟩) (ms0_2 ⟨31, hn⟩) (hs0_2 ⟨31, hn⟩) (ms0_3 ⟨31, hn⟩) (hs0_3 ⟨31, hn⟩) scM0_0 (Memref.isWhole_whole _) (fun h => h0 ((hcond0_0 ⟨31, hn⟩).mp h)) ((hcond0_1 ⟨31, hn⟩).mpr h1) (iblk m c 0 ⟨31, hn⟩) (iblk m c 1 ⟨31, hn⟩) (iblk m c 2 ⟨31, hn⟩)]
  funext y
  rw [pay3_at, pay2_at]
  unfold outValue
  rw [← runningSum_last m c, runningSum_succ m c 30 hn]
  exact congrArg (fun z => Ideal.div (z + pointSum m c ⟨31, hn⟩) _) (congrFun ih y)

end Cert.KernelIdeal.Acc

end
-- ==== Proof.OutArray.lean ====
/-
  The output array after the region, and the blocks each grid point reads.

  The 1×1 output has one block, at block index (0, 0) at every grid point; only the last point
  writes it back, with the value stored there, so after the region the array holds that value.
  Grid point `t` reads batch element `t`: its block of predictions is rows `(t, ·, 0‥16, ·, ·)` of
  the prediction array (the first 17 of the 34 channels), its heat-map block rows `(t, ·, ·, ·)`,
  its mask block rows `(t, ·, ·)` — a block's coordinate on an axis is block index × block size
  plus the coordinate inside the block.
-/
import proofs.«146554_j83880711290948_1_alg».proof.Proof.Accum

set_option maxRecDepth 16384

noncomputable section

namespace Cert.KernelIdeal.Acc

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- Only the last grid point writes the output block back … -/
theorem flush_only_last : ∀ t : Fin cfg0.N, (cfg0.win 3).flush t = true → t.val = 31 :=
  (by decide +kernel : ∀ t : Fin grid0.N, (cfg0.win 3).flush t = true → t.val = 31)

/-- … and it does. -/
theorem last_flushes : ∀ t : Fin cfg0.N, t.val = 31 → (cfg0.win 3).flush t = true :=
  (by decide +kernel : ∀ t : Fin grid0.N, t.val = 31 → (cfg0.win 3).flush t = true)

/-- The output's block index is (0, 0) at every point. -/
theorem out_index_zero : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Each input's block index is the grid point on the batch axis and 0 on every other axis. -/
theorem in_index : ∀ t : Fin cfg0.N,
    win0_0.index t (0 : Fin 5) = t.val ∧ win0_0.index t (1 : Fin 5) = 0 ∧ win0_0.index t (2 : Fin 5) = 0
    ∧ win0_0.index t (3 : Fin 5) = 0 ∧ win0_0.index t (4 : Fin 5) = 0
    ∧ win0_1.index t (0 : Fin 4) = t.val ∧ win0_1.index t (1 : Fin 4) = 0 ∧ win0_1.index t (2 : Fin 4) = 0
    ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 32 := lt_of_lt_of_eq t.isLt (show cfg0.N = 32 from N_0)

/-- THE OUTPUT ARRAY after the region: the total over all points divided by the element count. -/
theorem out_array (c : Dev nD) : (dats m 0 c).arrAt 3 cfg0.N = fun _ => outValue m c := by
  refine (dats m 0 c).arrAt_eq_of_cover 3 (fun _ => outValue m c) (fun t hf => ?_) (fun i => ?_)
  · have ht := flush_only_last t hf
    obtain ⟨n, hn⟩ := t
    obtain rfl : n = 31 := ht
    show (cfg0.win 3).cut (grid0.coords ⟨31, hn⟩) ((dats m 0 c).after 3 ⟨31, hn⟩) = _
    rw [after0_3]
    show (cfg0.win 3).cut (grid0.coords ⟨31, hn⟩) (outsAt0 m c 31 hn).1 = _
    rw [out_after m c hn]
    rfl
  · have h31 : 31 < cfg0.N := by rw [show cfg0.N = 32 from N_0]; omega
    refine ⟨⟨31, h31⟩, last_flushes _ rfl, ?_⟩
    show i ∈ ((View.whole main_v0).slice (win0_3.rect ⟨31, h31⟩)).set
    rw [View.set_slice_whole, Rect.mem_set_unit]
    obtain ⟨e0, e1⟩ := out_index_zero ⟨31, h31⟩
    intro a
    match a with
    | ⟨0, _⟩ =>
      show win0_3.index ⟨31, h31⟩ (0 : Fin 2) * 1 ≤ (i 0).val ∧ (i 0).val < win0_3.index ⟨31, h31⟩ (0 : Fin 2) * 1 + 1
      have hi : (i 0).val < 1 := (i 0).isLt
      omega
    | ⟨1, _⟩ =>
      show win0_3.index ⟨31, h31⟩ (1 : Fin 2) * 1 ≤ (i 1).val ∧ (i 1).val < win0_3.index ⟨31, h31⟩ (1 : Fin 2) * 1 + 1
      have hi : (i 1).val < 1 := (i 1).isLt
      omega

/-- The block of predictions point `t` reads. -/
theorem preds_block (c : Dev nD) (t : Fin cfg0.N) (s : Fin 4) (p : Fin 17) (h w : Fin 128) :
    iblk m c 0 t (ix5 0 s p h w)
      = m ((c : Thread nD τ).loc main_arg0) (ix5 ⟨t.val, point_lt t⟩ s ⟨p.val, by have := p.isLt; omega⟩ h w) := by
  show m ((c : Thread nD τ).loc main_arg0) (((cfg0.win 0).blk t).view.emb (ix5 0 s p h w)) = _
  obtain ⟨e0, e1, e2, e3, e4, -⟩ := in_index t
  refine congrArg _ (funext fun a => Fin.ext ?_)
  match a with
  | ⟨0, _⟩ => show win0_0.index t (0 : Fin 5) * 1 + 1 * 0 = t.val; omega
  | ⟨1, _⟩ => show win0_0.index t (1 : Fin 5) * 4 + 1 * s.val = s.val; omega
  | ⟨2, _⟩ => show win0_0.index t (2 : Fin 5) * 17 + 1 * p.val = p.val; omega
  | ⟨3, _⟩ => show win0_0.index t (3 : Fin 5) * 128 + 1 * h.val = h.val; omega
  | ⟨4, _⟩ => show win0_0.index t (4 : Fin 5) * 128 + 1 * w.val = w.val; omega

/-- The heat-map block point `t` reads. -/
theorem heat_block (c : Dev nD) (t : Fin cfg0.N) (p : Fin 17) (h w : Fin 128) :
    iblk m c 1 t (ix4 0 p h w) = m ((c : Thread nD τ).loc main_arg5) (ix4 ⟨t.val, point_lt t⟩ p h w) := by
  show m ((c : Thread nD τ).loc main_arg5) (((cfg0.win 1).blk t).view.emb (ix4 0 p h w)) = _
  obtain ⟨-, -, -, -, -, e0, e1, e2, e3, -⟩ := in_index t
  refine congrArg _ (funext fun a => Fin.ext ?_)
  match a with
  | ⟨0, _⟩ => show win0_1.index t (0 : Fin 4) * 1 + 1 * 0 = t.val; omega
  | ⟨1, _⟩ => show win0_1.index t (1 : Fin 4) * 17 + 1 * p.val = p.val; omega
  | ⟨2, _⟩ => show win0_1.index t (2 : Fin 4) * 128 + 1 * h.val = h.val; omega
  | ⟨3, _⟩ => show win0_1.index t (3 : Fin 4) * 128 + 1 * w.val = w.val; omega

/-- The mask block point `t` reads. -/
theorem mask_block (c : Dev nD) (t : Fin cfg0.N) (h w : Fin 128) :
    iblk m c 2 t (ix3 0 h w) = m ((c : Thread nD τ).loc main_arg1) (ix3 ⟨t.val, point_lt t⟩ h w) := by
  show m ((c : Thread nD τ).loc main_arg1) (((cfg0.win 2).blk t).view.emb (ix3 0 h w)) = _
  obtain ⟨-, -, -, -, -, -, -, -, -, e0, e1, e2⟩ := in_index t
  refine congrArg _ (funext fun a => Fin.ext ?_)
  match a with
  | ⟨0, _⟩ => show win0_2.index t (0 : Fin 3) * 1 + 1 * 0 = t.val; omega
  | ⟨1, _⟩ => show win0_2.index t (1 : Fin 3) * 128 + 1 * h.val = h.val; omega
  | ⟨2, _⟩ => show win0_2.index t (2 : Fin 3) * 128 + 1 * w.val = w.val; omega

end Cert.KernelIdeal.Acc

end
-- ==== Proof.KernelRun.lean ====
/-
  The idealized kernel program's run, with its result named.

  @main is the region followed by host operations.  After the region every window's array holds
  what the proof data says and every other buffer what it held on entry; the host operations that
  follow compute the tag term from the argument arrays exactly as the reference's own operations
  do — the same operations on the same operands — and add `1.0 ·` the region's 1×1 output, viewed
  as a scalar, to `0.001 ·` that term.  So the result is stated over the reference's own stage
  for the weighted tag term, which is never opened.
-/
import proofs.«146554_j83880711290948_1_alg».proof.Proof.Gen.KernelIdeal.Frame
import proofs.«146554_j83880711290948_1_alg».proof.Proof.RefRead

set_option maxRecDepth 65536

noncomputable section

namespace Cert.KernelIdeal.Acc

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The result buffer after the host operations that follow the region. -/
def tailValue (c : Dev nD) : Buf (Elt Ideal) ((c.tc : Thread nD τ).loc main_v23) :=
  Pipeline.afterTail₀ cfgs (dats m) 0 (V0 m) [hostOps1, hostOps1_1, hostOps1_2] c main_v23

/-- Every weakly fair execution of the idealized kernel program terminates with the result at
    `tailValue` and the arguments unchanged. -/
theorem kernel_run : θ_run defs (onTc (τ := τ) (main (F := Ideal))) ⟨m, fun _ => 0, ρ⟩ (fun r => ∀ c : Dev nD,
      r.2.mem ((c.tc : Thread nD τ).loc main_v23) = tailValue m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v23 (Pipeline.mem_restRefs_of main_v23 (by decide) (by decide)),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 1).trans (((dats m 0 c).arrAt_in 1 rfl _).trans ((A_eq m c 1).trans (V_main_arg5 m c)))⟩)
    (run_main m ρ)

set_option maxHeartbeats 4000000 in
/-- The result: the reference's weighted tag term of the argument arrays, plus `1.0 ·` the region's
    output array viewed as a scalar. -/
theorem tail_value (c : Dev nD) :
    tailValue m c
      = addf (F := Ideal) (Cert.ReferenceIdeal.ReadP.val_main_v30 (F := Ideal) (m ((c.tc : Thread nD τ).loc main_arg0)) (m ((c.tc : Thread nD τ).loc main_arg2))
            (m ((c.tc : Thread nD τ).loc main_arg3)) (m ((c.tc : Thread nD τ).loc main_arg4)))
          (mulf (F := Ideal) (constant (F := Ideal) S_ .f32 0x3F800000#32) (shapeCast S_ ((dats m 0 c).arrAt 3 cfg0.N) shapeCasts_S1x1_S_)) := by
  have e0 : Pipeline.withArrays (cfgs 0).spec c (V0 m c) (fun w => (dats m 0 c).arrAt w (cfgs 0).N) (Proc.devRef .tc main_arg0) = m ((c.tc : Thread nD τ).loc main_arg0) :=
    (Pipeline.withArrays_arr spec0 launch0.win.arr_inj c _ _ 0).trans
      (((dats m 0 c).arrAt_in 0 rfl _).trans ((A_eq m c 0).trans (V_main_arg0 m c)))
  have e2 : Pipeline.withArrays (cfgs 0).spec c (V0 m c) (fun w => (dats m 0 c).arrAt w (cfgs 0).N) (Proc.devRef .tc main_arg2) = m ((c.tc : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays (cfgs 0).spec c (V0 m c) (fun w => (dats m 0 c).arrAt w (cfgs 0).N) (Proc.devRef .tc main_arg3) = m ((c.tc : Thread nD τ).loc main_arg3) :=
    (Pipeline.withArrays_of_ne _ c (V0 m c) _ main_arg3 (by exact (by decide : ∀ w, Pipeline.arrRef spec0 w ≠ main_arg3))).trans (V_main_arg3 m c)
  have e4 : Pipeline.withArrays (cfgs 0).spec c (V0 m c) (fun w => (dats m 0 c).arrAt w (cfgs 0).N) (Proc.devRef .tc main_arg4) = m ((c.tc : Thread nD τ).loc main_arg4) :=
    (Pipeline.withArrays_of_ne _ c (V0 m c) _ main_arg4 (by exact (by decide : ∀ w, Pipeline.arrRef spec0 w ≠ main_arg4))).trans (V_main_arg4 m c)
  have eo : Pipeline.withArrays (cfgs 0).spec c (V0 m c) (fun w => (dats m 0 c).arrAt w (cfgs 0).N) (Proc.devRef .tc main_v0) = (dats m 0 c).arrAt 3 cfg0.N :=
    Pipeline.withArrays_arr spec0 launch0.win.arr_inj c _ _ 3
  unfold tailValue Pipeline.afterTail₀
  simp only [hostOps1, hostOps1_1, hostOps1_2, List.flatten_cons, List.flatten_nil, List.append_nil, List.cons_append, List.nil_append]
  after_results_simp
  simp only [StableHlo.TRef.ofBuf, StableHlo.TRef.toBuf, cast_eq, e0, e2, e3, e4, eo]
  rfl

end Cert.KernelIdeal.Acc

end
-- ==== Proof.MeanLaw.lean ====
/-
  Two ways of averaging agree on the extended reals.

  A mean taken in two stages — over each fibre of a map `d : ι → κ`, then over the fibres —
  divides every fibre's sum by `278528` and the sum of those quotients by `128`.  A mean taken
  in one stage divides the sum over all of `ι` by `35651584 = 278528 · 128`.  Division by a
  non-zero real is multiplication by its reciprocal on every extended real, and multiplication
  by a finite non-negative constant distributes over a finite sum of extended reals whatever
  the summands are (the infinities included), so the two agree with no finiteness assumption.
-/
import Idealize.ShloMosaic.PureOps.Ideal
import Idealize.ShloMosaic.PureOps.Ideal.Laws

noncomputable section

namespace Cert.MeanLaw

open Idealize.ShloMosaic

/-- The three divisors, as the reals their f32 patterns denote. -/
theorem ofBits_total : Ideal.ofBits .f32 0x4C080000#32 = ((35651584 : ℝ) : EReal) := by
  simp [Ideal.ofBits, Ideal.ieee, -EReal.coe_mul]; norm_num

theorem ofBits_fibre : Ideal.ofBits .f32 0x48880000#32 = ((278528 : ℝ) : EReal) := by
  simp [Ideal.ofBits, Ideal.ieee, -EReal.coe_mul]; norm_num

theorem ofBits_fibres : Ideal.ofBits .f32 0x43000000#32 = ((128 : ℝ) : EReal) := by
  simp [Ideal.ofBits, Ideal.ieee, -EReal.coe_mul]; norm_num

/-- A finite non-negative factor moves out of a finite sum of extended reals. -/
theorem sum_mul_const {ι : Type*} (s : Finset ι) (a : ι → EReal) {k : EReal} (hk : 0 ≤ k) (hk' : k ≠ ⊤) :
    ∑ j ∈ s, a j * k = (∑ j ∈ s, a j) * k := by
  classical
  induction s using Finset.induction_on with
  | empty => simp
  | insert x s hx ih =>
    rw [Finset.sum_insert hx, Finset.sum_insert hx, ih, EReal.right_distrib_of_nonneg_of_ne_top hk hk']

/-- The mean of the fibre means is the mean of everything: `(∑ⱼ (∑_{d i = j} g i) / 278528) / 128`
    is `(∑ᵢ g i) / 35651584`, each sum started from `0` as a host reduction starts it. -/
theorem mean_of_means {ι κ : Type*} [Fintype ι] [Fintype κ] [DecidableEq κ] (g : ι → EReal) (d : ι → κ) :
    Ideal.div (0 + ∑ j : κ, Ideal.div (0 + ∑ i ∈ Finset.univ.filter (fun i => d i = j), g i) ((278528 : ℝ) : EReal))
        ((128 : ℝ) : EReal)
      = Ideal.div (∑ i, g i) ((35651584 : ℝ) : EReal) := by
  have h1 : (0 : EReal) ≤ ((1 / 278528 : ℝ) : EReal) := by exact_mod_cast (by norm_num : (0 : ℝ) ≤ 1 / 278528)
  simp only [Ideal.div_coe (by norm_num : (278528 : ℝ) ≠ 0), Ideal.div_coe (by norm_num : (128 : ℝ) ≠ 0),
    Ideal.div_coe (by norm_num : (35651584 : ℝ) ≠ 0), zero_add]
  rw [sum_mul_const _ _ h1 (EReal.coe_ne_top _), Finset.sum_fiberwise, mul_assoc, ← EReal.coe_mul]
  norm_num

end Cert.MeanLaw

end
-- ==== Proof.RefDet.lean ====
/-
  The reference's heat-map term is ONE mean.

  The reference squares the masked error, takes the mean over (part, row, column) for every
  (batch, stack) — a sum over the fibre of the map that forgets those three axes, divided by
  `278528 = 17·128·128` — and then the mean of those `32·4 = 128` numbers.  Each host sum starts
  from the constant `0.0`.  By the law of the two-stage mean this is the sum of the masked squared
  error over every index, divided by `35651584`.
-/
import proofs.«146554_j83880711290948_1_alg».proof.Proof.RefRead
import proofs.«146554_j83880711290948_1_alg».proof.Proof.MeanLaw
import Idealize.ShloMosaic.Lib.ValueIdx

noncomputable section

namespace Cert.ReferenceIdeal.DetMean

open Cert.ReferenceIdeal Cert.ReferenceIdeal.Gen Cert.ReferenceIdeal.ReadP
open Idealize.ShloMosaic Idealize.ShloMosaic.ValueIdx

variable (x0 : (⟨S32x4x34x128x128, .f32⟩ : BufTy).Contents (Elt Ideal)) (x1 : (⟨S32x128x128, .f32⟩ : BufTy).Contents (Elt Ideal))
  (x5 : (⟨S32x17x128x128, .f32⟩ : BufTy).Contents (Elt Ideal))

/-- The sum over (part, row, column) at one (batch, stack): the initial `0.0` plus the sum of the
    masked squared error over the indices that forget to that (batch, stack). -/
theorem fibre_sum (j : S32x4.Idx) :
    val_main_v25 (F := Ideal) x0 x1 x5 j
      = 0 + ∑ k ∈ Finset.univ.filter (fun k => reducesTo_S32x4x17x128x128_S32x4_d2_3_4.drop k = j), val_main_v24 (F := Ideal) x0 x1 x5 k := by
  unfold val_main_v25
  generalize val_main_v24 (F := Ideal) x0 x1 x5 = y0
  simp only [Host.reduceAdd, Ideal.hostReduceAdd_def]
  show val_main_cst_2 (F := Ideal) _ + ∑ k ∈ Finset.univ.filter (fun k => reducesTo_S32x4x17x128x128_S32x4_d2_3_4.drop k = j), y0 k = _
  rw [val_main_cst_2_apply, Ideal.ofBits_def, Ideal.ofBits_zero_f32]

/-- The reference's heat-map mean at its one index: the total of the masked squared error over
    every (batch, stack, part, row, column), divided by the element count. -/
theorem det_mean (i : S_.Idx) :
    val_main_v32 (F := Ideal) x0 x1 x5 i
      = Ideal.div (∑ k : S32x4x17x128x128.Idx, val_main_v24 (F := Ideal) x0 x1 x5 k) ((35651584 : ℝ) : EReal) := by
  rw [val_main_v32_apply, val_main_v31_apply]
  simp only [val_main_v27_apply, val_main_v26_apply, val_main_cst_3_apply, val_main_cst_7_apply, val_main_cst_8_apply,
    Ideal.hostDivf_def, Ideal.ofBits_def, fibre_sum]
  rw [Ideal.ofBits_zero_f32, MeanLaw.ofBits_fibre, MeanLaw.ofBits_fibres]
  exact MeanLaw.mean_of_means _ _

/-- One summand: the squared difference of prediction and heat map, times the mask. -/
theorem summand (k : S32x4x17x128x128.Idx) :
    val_main_v24 (F := Ideal) x0 x1 x5 k
      = (x0 (idx_main_v17 k) - x5 (idx_main_v18 (idx_main_v19 k))) * (x0 (idx_main_v17 k) - x5 (idx_main_v18 (idx_main_v19 k)))
          * x1 (idx_main_v22 (idx_main_v23 k)) := by
  rw [val_main_v24_apply, val_main_v21_apply, val_main_v20_apply, val_main_v17_apply, val_main_v19_apply, val_main_v18_apply,
    val_main_v23_apply, val_main_v22_apply]
  rfl

end Cert.ReferenceIdeal.DetMean

end
-- ==== Proof.LibSumIdx.lean ====
/-
  A sum over a rank-5 index set is the five-fold sum over its coordinates.
  (General: any extents, any commutative additive monoid.  The rank-2 case is the library's
  `ValueIdx.sum_idx2`; this is the same statement three axes further.)
-/
import Idealize.ShloMosaic.Lib.ValueIdx

namespace Cert.SumIdxLib

open Idealize.ShloMosaic Idealize.ShloMosaic.ValueIdx

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun q := ix5 q.1 q.2.1 q.2.2.1 q.2.2.2.1 q.2.2.2.2
  left_inv i := (eq_ix5 i).symm
  right_inv _ := rfl

/-- … so a sum over it is the five-fold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

end Cert.SumIdxLib
-- ==== Proof.Bridge.lean ====
/-
  The two programs compute one number.

  Kernel: `0.001 · tag + 1.0 · (Σ_t pointSum t) / 35651584`, where grid point `t` sums the masked
  squared error of batch element `t`.  Reference: `0.001 · tag + 1.0 · (Σ_k e k) / 35651584`, where
  `k` runs over every (batch, stack, part, row, column) and `e k` is the masked squared error there
  (the reference's two-stage mean, already folded into one).  The tag terms are the same stage of
  the same argument arrays.  A sum over a rank-5 index set is the five-fold sum over its
  coordinates, the batch coordinate is the grid point, and at equal coordinates the kernel's block
  entries are the reference's array entries; so the two totals are one sum.
-/
import proofs.«146554_j83880711290948_1_alg».proof.Proof.OutArray
import proofs.«146554_j83880711290948_1_alg».proof.Proof.KernelRun
import proofs.«146554_j83880711290948_1_alg».proof.Proof.RefDet
import proofs.«146554_j83880711290948_1_alg».proof.Proof.LibSumIdx

set_option maxRecDepth 65536

noncomputable section

namespace Cert.Proof.Bridge

open Idealize.ShloMosaic Idealize.ShloMosaic.TcCoe Idealize.ShloMosaic.ValueIdx
open Idealize.SL Idealize.SL.Sem
open Cert.KernelIdeal.Acc Cert.ReferenceIdeal.ReadP Cert.ReferenceIdeal.DetMean

variable (m : (ℓ : Loc Cert.KernelIdeal.nD Cert.KernelIdeal.τ Cert.KernelIdeal.sig) → Buf (Elt Ideal) ℓ)

/-- The kernel's total over the grid is the reference's total over every index. -/
theorem total_eq (c : Dev Cert.KernelIdeal.nD) :
    ∑ t : Fin Cert.KernelIdeal.cfg0.N, pointSum m c t
      = ∑ k : Cert.ReferenceIdeal.S32x4x17x128x128.Idx,
          val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) k := by
  rw [Cert.SumIdxLib.sum_idx5]
  refine Fintype.sum_equiv (finCongr Cert.KernelIdeal.Gen.N_0) _ _ fun t => ?_
  unfold pointSum blockSum
  refine Finset.sum_congr rfl fun s _ => Finset.sum_congr rfl fun p _ => Finset.sum_congr rfl fun h _ =>
    Finset.sum_congr rfl fun w _ => ?_
  rw [preds_block, heat_block, mask_block, summand]
  have i0 : idx_main_v17 (ix5 (finCongr Cert.KernelIdeal.Gen.N_0 t) s p h w)
      = ix5 ⟨t.val, point_lt t⟩ s ⟨p.val, by have := p.isLt; omega⟩ h w :=
    funext fun a => by
      match a with
      | ⟨0, _⟩ => rfl
      | ⟨1, _⟩ => rfl
      | ⟨2, _⟩ => rfl
      | ⟨3, _⟩ => rfl
      | ⟨4, _⟩ => rfl
  have i1 : idx_main_v18 (idx_main_v19 (ix5 (finCongr Cert.KernelIdeal.Gen.N_0 t) s p h w)) = ix4 ⟨t.val, point_lt t⟩ p h w :=
    funext fun a => by
      match a with
      | ⟨0, _⟩ => rfl
      | ⟨1, _⟩ => rfl
      | ⟨2, _⟩ => rfl
      | ⟨3, _⟩ => rfl
  have i2 : idx_main_v22 (idx_main_v23 (ix5 (finCongr Cert.KernelIdeal.Gen.N_0 t) s p h w)) = ix3 ⟨t.val, point_lt t⟩ h w :=
    funext fun a => by
      match a with
      | ⟨0, _⟩ => rfl
      | ⟨1, _⟩ => rfl
      | ⟨2, _⟩ => rfl
  rw [i0, i1, i2]

/-- The kernel program's result is the reference program's, on memories that agree on the arguments. -/
theorem result_eq (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v34 m' c = tailValue m c := by
  rw [val_main_v34_eq, h0, h1, h2, h3, h4, h5, tail_value]
  unfold val_main_v34
  refine congrArg (addf _) ?_
  funext i
  rw [val_main_v33_apply, det_mean, out_array]
  show FloatOps.mulf (Ideal.ofBits .f32 0x3F800000#32) _ = FloatOps.mulf (Ideal.ofBits .f32 0x3F800000#32) (outValue m c)
  unfold outValue
  rw [Cert.MeanLaw.ofBits_total, total_eq]

end Cert.Proof.Bridge

end
-- ==== Proof.lean ====
/-
  A keypoint loss: `0.001 ·` a tag term `+ 1.0 ·` a heat-map term.

  The tag term (a gather of 65 280 predicted tags at the keypoint indices, their squared distance
  to the ground-truth tags weighted by visibility, summed and averaged) is computed by the same
  host operations on the same arrays in both programs.

  The heat-map term is the mean of `(pred − heat)² · mask` over batch (32), stack (4), part (17),
  row (128) and column (128).  The kernel streams one batch element per grid point, sums that
  element's 4·17·128·128 terms, keeps a running total in a 1×1 accumulator that it zeroes at the
  first point, and at the last point stores the total divided by `35651584 = 32·4·17·128·128`.
  The reference takes the mean over (part, row, column) for each (batch, stack), dividing by
  `278528`, and then the mean of those 128 numbers.  On the extended reals division by a non-zero
  real is multiplication by its reciprocal, and a finite non-negative factor moves out of any
  finite sum, so the mean of the 128 means is the one mean — for every input, finite or not:
  the precondition is not needed for the value, only carried.

  The three frames: the two kernel programs' are generated whole; the reference has no kernel and
  its frame is its run with the result dropped.  The idealization rewrote nothing, so there is
  nothing to preserve.
-/
import proofs.«146554_j83880711290948_1_alg».proof.Defs
import proofs.«146554_j83880711290948_1_alg».proof.Proof.Gen.Kernel
import proofs.«146554_j83880711290948_1_alg».proof.Proof.Gen.Kernel.Skeleton
import proofs.«146554_j83880711290948_1_alg».proof.Proof.Gen.Kernel.Launch
import proofs.«146554_j83880711290948_1_alg».proof.Proof.Gen.Kernel.Points
import proofs.«146554_j83880711290948_1_alg».proof.Proof.Gen.Kernel.Frame
import proofs.«146554_j83880711290948_1_alg».proof.Proof.Gen.KernelIdeal
import proofs.«146554_j83880711290948_1_alg».proof.Proof.Gen.KernelIdeal.Skeleton
import proofs.«146554_j83880711290948_1_alg».proof.Proof.Gen.KernelIdeal.Launch
import proofs.«146554_j83880711290948_1_alg».proof.Proof.Gen.KernelIdeal.Points
import proofs.«146554_j83880711290948_1_alg».proof.Proof.Gen.KernelIdeal.Frame
import proofs.«146554_j83880711290948_1_alg».proof.Proof.Gen.ReferenceIdeal
import proofs.«146554_j83880711290948_1_alg».proof.Proof.Gen.Pre_finite_inputs
import proofs.«146554_j83880711290948_1_alg».proof.Proof.Bridge
import Idealize.ShloMosaic.Adequacy
import Idealize.ShloMosaic.Init

noncomputable section

namespace Cert.Proof

open Idealize.ShloMosaic Idealize.SL.Sem

/-- The printed kernel program runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the same number: the kernel
    program at the value its host tail leaves, the reference at its composed term, and those are
    equal because the mean of the per-(batch, stack) means is the mean over everything. -/
theorem algebraic : Cert.algebraic_KernelIdeal_ReferenceIdeal := by
  intro m ρ m' ρ' _ hagree
  refine ⟨fun c => Cert.KernelIdeal.Acc.tailValue m c, Cert.KernelIdeal.Acc.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  exact Cert.Proof.Bridge.result_eq m m' c h0 h1 h2 h3 h4 h5

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
